-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S128x128 : Shape := ⟨2, ![128, 128]⟩
abbrev S1x128 : Shape := ⟨2, ![1, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg4 : FVec F S1x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  main_v23

def fn {F : FTy → Type} [FloatOps F] (main_arg0 : FVec F S16384x128 .f32) (main_arg1 : FVec F S16384x128 .f32) (main_arg2 : FVec F S128x128 .f32) (main_arg3 : FVec F S128x128 .f32) (main_arg4 : FVec F S1x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S16384x128 : Shape := ⟨2, ![16384, 128]⟩
abbrev S128x128 : Shape := ⟨2, ![128, 128]⟩
abbrev S1x128 : Shape := ⟨2, ![1, 128]⟩
abbrev S16384x128x128 : Shape := ⟨3, ![16384, 128, 128]⟩
abbrev S64x128 : Shape := ⟨2, ![64, 128]⟩
abbrev S64x128x128 : Shape := ⟨3, ![64, 128, 128]⟩
abbrev S64x128x1 : Shape := ⟨3, ![64, 128, 1]⟩
abbrev S1x128x128 : Shape := ⟨3, ![1, 128, 128]⟩
abbrev S1x1x128 : Shape := ⟨3, ![1, 1, 128]⟩

abbrev nBuf : Space → Nat
  | .hbm => 6
  | .vmem => 9
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S128x128, .f32⟩
  | .hbm, ⟨3, _⟩ => ⟨S128x128, .f32⟩
  | .hbm, ⟨4, _⟩ => ⟨S1x128, .f32⟩
  | .hbm, ⟨5, _⟩ => ⟨S16384x128x128, .f32⟩
  | .local _ .vmem, ⟨0, _⟩ => ⟨S64x128, .f32⟩
  | .local _ .vmem, ⟨1, _⟩ => ⟨S64x128, .f32⟩
  | .local _ .vmem, ⟨2, _⟩ => ⟨S64x128, .f32⟩
  | .local _ .vmem, ⟨3, _⟩ => ⟨S64x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S64x128x128, .f32⟩
  | .local _ .vmem, ⟨8, _⟩ => ⟨S64x128x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S64x128_S64x128_0_0 : ∀ a, (![0, 0] : Fin 2 → Nat) a + S64x128.size a ≤ S64x128.size a
  h_S64x128 : 0 < S64x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S64x128_S64x128x1 : S64x128.ShapeCasts S64x128x1
  shapeCasts_S128x128_S1x128x128 : S128x128.ShapeCasts S1x128x128
  broadcasts_S64x128x1_S64x128x128 : S64x128x1.Broadcasts S64x128x128
  broadcasts_S1x128x128_S64x128x128 : S1x128x128.Broadcasts S64x128x128
  shapeCasts_S1x128_S1x1x128 : S1x128.ShapeCasts S1x1x128
  broadcasts_S1x1x128_S64x128x128 : S1x1x128.Broadcasts S64x128x128
  inb_S64x128x128_S64x128x128_0_0_0 : ∀ a, (![0, 0, 0] : Fin 3 → Nat) a + S64x128x128.size a ≤ S64x128x128.size a
  h_S64x128x128 : 0 < S64x128x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S16384x128.size a
  hwx0_0 : ∀ i : grid0.Coords, EltTy.bits .f32 = 32 ∨ (Rect.block (s := S16384x128) S64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S16384x128.size a
  hwx0_1 : ∀ i : grid0.Coords, EltTy.bits .f32 = 32 ∨ (Rect.block (s := S16384x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x128x128.size a ≤ S16384x128x128.size a
  hwx0_5 : ∀ i : grid0.Coords, EltTy.bits .f32 = 32 ∨ (Rect.block (s := S16384x128x128) S64x128x128.size (cc0_transform_5 i) (hinb0_5 i)).WholeWords (EltTy.packing .f32)

variable [Facts₀]

abbrev win0_0 : Pipeline.Window sig grid0 :=
  Pipeline.Window.ofSpec (Memref.whole main_arg0) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S64x128x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x128 : Shape := ⟨2, ![16384, 128]⟩
abbrev S128x128 : Shape := ⟨2, ![128, 128]⟩
abbrev S1x128 : Shape := ⟨2, ![1, 128]⟩
abbrev S16384x128x1 : Shape := ⟨3, ![16384, 128, 1]⟩
abbrev S1x128x128 : Shape := ⟨3, ![1, 128, 128]⟩
abbrev S16384x128x128 : Shape := ⟨3, ![16384, 128, 128]⟩
abbrev S_ : Shape := ⟨0, ![]⟩
abbrev S1x1x128 : Shape := ⟨3, ![1, 1, 128]⟩

abbrev nBuf : Space → Nat
  | .hbm => 24
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S128x128, .f32⟩
  | .hbm, ⟨3, _⟩ => ⟨S128x128, .f32⟩
  | .hbm, ⟨4, _⟩ => ⟨S1x128, .f32⟩
  | .hbm, ⟨5, _⟩ => ⟨S16384x128x1, .f32⟩
  | .hbm, ⟨6, _⟩ => ⟨S1x128x128, .f32⟩
  | .hbm, ⟨7, _⟩ => ⟨S16384x128x128, .f32⟩
  | .hbm, ⟨8, _⟩ => ⟨S16384x128x128, .f32⟩
  | .hbm, ⟨9, _⟩ => ⟨S16384x128x128, .f32⟩
  | .hbm, ⟨10, _⟩ => ⟨S1x128x128, .f32⟩
  | .hbm, ⟨11, _⟩ => ⟨S16384x128x128, .f32⟩
  | .hbm, ⟨12, _⟩ => ⟨S16384x128x128, .f32⟩
  | .hbm, ⟨13, _⟩ => ⟨S16384x128x1, .f32⟩
  | .hbm, ⟨14, _⟩ => ⟨S_, .f32⟩
  | .hbm, ⟨15, _⟩ => ⟨S16384x128x1, .f32⟩
  | .hbm, ⟨16, _⟩ => ⟨S16384x128x1, .f32⟩
  | .hbm, ⟨17, _⟩ => ⟨S16384x128x128, .f32⟩
  | .hbm, ⟨18, _⟩ => ⟨S16384x128x128, .f32⟩
  | .hbm, ⟨19, _⟩ => ⟨S1x1x128, .f32⟩
  | .hbm, ⟨20, _⟩ => ⟨S16384x128x128, .f32⟩
  | .hbm, ⟨21, _⟩ => ⟨S16384x128x128, .f32⟩
  | .hbm, ⟨22, _⟩ => ⟨S16384x128x128, .f32⟩
  | .hbm, ⟨23, _⟩ => ⟨S16384x128x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  bcast_S16384x128_S16384x128x1_0_1 : S16384x128.BroadcastsInDim S16384x128x1 (![0, 1] : Fin 2 → Fin S16384x128x1.rank)
  bcast_S128x128_S1x128x128_1_2 : S128x128.BroadcastsInDim S1x128x128 (![1, 2] : Fin 2 → Fin S1x128x128.rank)
  bcast_S16384x128x1_S16384x128x128_0_1_2 : S16384x128x1.BroadcastsInDim S16384x128x128 (![0, 1, 2] : Fin 3 → Fin S16384x128x128.rank)
  bcast_S1x128x128_S16384x128x128_0_1_2 : S1x128x128.BroadcastsInDim S16384x128x128 (![0, 1, 2] : Fin 3 → Fin S16384x128x128.rank)
  bcast_S_S16384x128x1 : S_.BroadcastsInDim S16384x128x1 (![] : Fin 0 → Fin S16384x128x1.rank)
  bcast_S1x128_S1x1x128_1_2 : S1x128.BroadcastsInDim S1x1x128 (![1, 2] : Fin 2 → Fin S1x1x128.rank)
  bcast_S1x1x128_S16384x128x128_0_1_2 : S1x1x128.BroadcastsInDim S16384x128x128 (![0, 1, 2] : Fin 3 → Fin S16384x128x128.rank)

variable [Facts₀]

class Facts : Prop extends Facts₀ where

variable [Facts]
-- ==== Proof.Blend.lean ====
/-
  The feature tokenizer's result as ONE function of its five argument arrays, on the extended reals.

  For a batch row `r`, a numerical column `j` and a hidden unit `k`:

      out[r, j, k] = (x[r, j] · W[j, k] + b[j, k]) · (1 − mask[r, j]) + e[0, k] · mask[r, j]

  Column `j` carries its own affine map `s ↦ s · W[j, ·] + b[j, ·]` of a scalar feature into the hidden
  dimension; the result is that map's value at `x[r, j]`, blended with the mask embedding `e` by the weight
  `mask[r, j]`. An entry of the result depends on exactly one entry of each array: `x` and `mask` at (r, j), `W`
  and `b` at (j, k), `e` at (0, k). Nothing is summed and no factor is moved across a sum, so the two programs, which
  apply these operations in this same order, agree entry by entry without any law of the extended reals and without
  using that the inputs are finite. The constant `1` is kept as the 32-bit word both programs spell; it is never evaluated.
-/
import Idealize.ShloMosaic.PureOps.Ideal
import Idealize.ShloMosaic.Lib.ValueIdx

noncomputable section

namespace Cert.Blend

open Idealize.ShloMosaic Idealize.ShloMosaic.ValueIdx

/-- Rows by columns: the shape of the features `x` and of the blend weights `mask`. -/
abbrev Feat : Shape := ⟨2, ![16384, 128]⟩
/-- Columns by hidden units: the shape of the per-column weights `W` and biases `b`. -/
abbrev Tab : Shape := ⟨2, ![128, 128]⟩
/-- One row of hidden units: the shape of the mask embedding `e`. -/
abbrev Emb : Shape := ⟨2, ![1, 128]⟩
/-- Rows by columns by hidden units: the shape of the result. -/
abbrev Tok : Shape := ⟨3, ![16384, 128, 128]⟩

/-- The constant one, as the single-precision word both programs carry. -/
abbrev one : EReal := Ideal.ofBits .f32 0x3F800000#32

/-- The scalar formula: a feature `s` through the affine map with slope `w` and intercept `c`, blended with the
    embedding's value `v` by the weight `a`: `(s · w + c) · (1 − a) + v · a`. -/
def mix (s w c a v : EReal) : EReal := (s * w + c) * (one - a) + v * a

/-- The result at row `r`, column `j`, hidden unit `k`: the scalar formula at `x[r, j]`, `W[j, k]`, `b[j, k]`,
    `mask[r, j]` and `e[0, k]`. -/
def blendAt (x mk : FVec Ideal Feat .f32) (W b : FVec Ideal Tab .f32) (e : FVec Ideal Emb .f32)
    (r : Fin 16384) (j : Fin 128) (k : Fin 128) : EReal :=
  mix (x (ix2 r j)) (W (ix2 j k)) (b (ix2 j k)) (mk (ix2 r j)) (e (ix2 (0 : Fin 1) k))

/-- The whole result array: `blendAt` at each index's three coordinates. -/
def blend (x mk : FVec Ideal Feat .f32) (W b : FVec Ideal Tab .f32) (e : FVec Ideal Emb .f32) : FVec Ideal Tok .f32 :=
  fun i => blendAt x mk W b e (i 0) (i 1) (i 2)

end Cert.Blend

end
-- ==== Proof.ReferenceBlend.lean ====
/-
  The reference computes the blend.

  The reference broadcasts each argument to the full rows × columns × hidden shape — `x` and `mask` along the hidden
  axis, `W` and `b` along the rows, the mask embedding along rows and columns — and then combines the broadcast arrays
  entry by entry. Read at an index (r, j, k), a broadcast array is its source at the coordinates the source has: (r, j) for
  `x` and `mask`, (j, k) for `W` and `b`, (0, k) for the embedding. So the reference's last stage, read at (r, j, k), is
  `(x[r, j] · W[j, k] + b[j, k]) · (1 − mask[r, j]) + e[0, k] · mask[r, j]`: the blend.
-/
import proofs.«175717_j69664369541889_1_alg».proof.Proof.Gen.ReferenceIdeal.Read
import proofs.«175717_j69664369541889_1_alg».proof.Proof.Blend

noncomputable section

namespace Cert.ReferenceIdeal.RefBlend

open Idealize.ShloMosaic Idealize.ShloMosaic.ValueIdx
open Cert.ReferenceIdeal Cert.ReferenceIdeal.Read Cert.Blend

/-- A result index, sent back through the two broadcasts of the features `x`, is its (row, column) … -/
theorem src_feature (i : S16384x128x128.Idx) : idx_main_v0 (idx_main_v2 i) = (ix2 (i 0) (i 1) : S16384x128.Idx) :=
  funext fun a => Fin.ext (by match a with | ⟨0, _⟩ => rfl | ⟨1, _⟩ => rfl)

/-- … and so it is through the broadcasts of the blend weights, where they are subtracted from one and where they
    multiply the embedding alike (both go through the same first broadcast). -/
theorem src_weight (i : S16384x128x128.Idx) : idx_main_v8 (idx_main_v11 i) = (ix2 (i 0) (i 1) : S16384x128.Idx) :=
  funext fun a => Fin.ext (by match a with | ⟨0, _⟩ => rfl | ⟨1, _⟩ => rfl)

/-- A result index, sent back through the two broadcasts of the slopes `W`, is its (column, hidden unit) … -/
theorem src_slope (i : S16384x128x128.Idx) : idx_main_v1 (idx_main_v3 i) = (ix2 (i 1) (i 2) : S128x128.Idx) :=
  funext fun a => Fin.ext (by match a with | ⟨0, _⟩ => rfl | ⟨1, _⟩ => rfl)

/-- … and likewise through those of the intercepts `b`. -/
theorem src_intercept (i : S16384x128x128.Idx) : idx_main_v5 (idx_main_v6 i) = (ix2 (i 1) (i 2) : S128x128.Idx) :=
  funext fun a => Fin.ext (by match a with | ⟨0, _⟩ => rfl | ⟨1, _⟩ => rfl)

/-- A result index, sent back through the two broadcasts of the embedding, is (0, hidden unit). -/
theorem src_embedding (i : S16384x128x128.Idx) : idx_main_v13 (idx_main_v14 i) = (ix2 (0 : Fin 1) (i 2) : S1x128.Idx) :=
  funext fun a => Fin.ext (by match a with | ⟨0, _⟩ => rfl | ⟨1, _⟩ => rfl)

/-- The reference's last stage is the blend of its arguments. -/
theorem stage_eq_blend (x mk : FVec Ideal S16384x128 .f32) (W b : FVec Ideal S128x128 .f32) (e : FVec Ideal S1x128 .f32) :
    val_main_v17 (F := Ideal) x mk W b e = blend x mk W b e := by
  funext i
  rw [val_main_v17_apply, val_main_v12_apply, val_main_v7_apply, val_main_v4_apply, val_main_v2_apply, val_main_v0_apply,
    val_main_v3_apply, val_main_v1_apply, val_main_v6_apply, val_main_v5_apply, val_main_v11_apply, val_main_v10_apply,
    val_main_v9_apply, val_main_cst_apply, val_main_v8_apply, val_main_v16_apply, val_main_v14_apply, val_main_v13_apply,
    val_main_v15_apply, val_main_v8_apply]
  -- each source at its own coordinates: `x` and `mask` at (row, column), `W` and `b` at (column, hidden unit), the embedding at (0, hidden unit)
  rw [src_feature, src_weight, src_slope, src_intercept, src_embedding]
  rfl

end Cert.ReferenceIdeal.RefBlend

end
-- ==== Proof.KernelBlend.lean ====
/-
  The kernel leaves the blend in its result array.

  The kernel walks the 16384 batch rows in 256 steps of 64. At step `t` it is handed rows 64t … 64t + 63 of `x` and of
  `mask`, and the whole of `W`, `b` and the embedding `e`; it writes rows 64t … 64t + 63 of the result. At row `p` of the
  step, column `j` and hidden unit `k` what it writes is
      (x[64t + p, j] · W[j, k] + b[j, k]) · (1 − mask[64t + p, j]) + e[0, k] · mask[64t + p, j],
  the blend at row 64t + p: the step's band of the result is the same band of the blend. Every row `r` lies in exactly one
  band, that of step `r / 64`, so after the last step the result array is the blend everywhere.
-/
import proofs.«175717_j69664369541889_1_alg».proof.Proof.Gen.KernelIdeal.Value
import proofs.«175717_j69664369541889_1_alg».proof.Proof.Blend

set_option maxRecDepth 16384

noncomputable section

namespace Cert.KernelIdeal.KerBlend

open Cert.KernelIdeal Cert.KernelIdeal.Gen Idealize.ShloMosaic Idealize.ShloMosaic.TcCoe Idealize.SL.Sem
open Idealize.ShloMosaic.Pipeline (Dat)
open Idealize.ShloMosaic.ValueIdx Cert.Blend

variable (m : (ℓ : Loc nD τ sig) → Buf (Elt Ideal) ℓ) (ρ : Dev nD → PrngReg)

/-- The blend of core `c`'s five argument arrays as launched. -/
abbrev result (c : Dev nD) : FVec Ideal Tok .f32 :=
  blend (V m c main_arg0) (V m c main_arg1) (V m c main_arg2) (V m c main_arg3) (V m c main_arg4)

/-! ## One step -/

theorem zeros2 : (![0, 0] : Fin 2 → Nat) = fun _ => 0 := funext fun a => by fin_cases a <;> rfl

/-- What a step leaves in the result's buffer, from the five blocks it was handed: each block is read whole, and the
    one store's value, entry by entry, is the scalar formula of one entry of each block. -/
theorem step_block (xb mb : Vec Ideal S64x128 .f32) (Wb bb : Vec Ideal S128x128 .f32) (eb : Vec Ideal S1x128 .f32)
    (y : S64x128x128.Idx) : out0_5 xb mb Wb bb eb y = Value.E5 xb Wb bb mb eb y := by
  unfold out0_5
  simp only [View.ld_unit_zero (S := S64x128) zeros2, View.ld_unit_zero (S := S128x128) zeros2,
    View.ld_unit_zero (S := S1x128) zeros2]
  exact Value.canon5_eq xb Wb bb mb eb y

/-- Where each step's blocks sit, decided over the 256 steps: the blocks of `x`, of `mask` and of the result are the
    step's own band of rows (block index `t` along the rows, 0 along the other axes); `W`, `b` and the embedding are
    handed over whole at every step (block index 0 on both axes). -/
theorem block_indices : ∀ t : Fin cfg0.N,
    win0_0.index t (0 : Fin 2) = win0_5.index t (0 : Fin 3) ∧ win0_0.index t (1 : Fin 2) = 0
    ∧ win0_1.index t (0 : Fin 2) = win0_5.index t (0 : Fin 3) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- The band of step `t`: at (p, j, k) of the step the scalar formula of the step's blocks is the blend at the array
    index under (p, j, k), row 64t + p. Each block entry is an array entry — a block's coordinate is block index × block
    size + the coordinate inside the block — and the array entries are the ones the blend reads there. -/
theorem band_eq (c : Dev nD) (t : Fin cfg0.N) (y : S64x128x128.Idx) :
    Value.E5 (iblk m c 0 t) (iblk m c 2 t) (iblk m c 3 t) (iblk m c 1 t) (iblk m c 4 t) y
      = result m c (((cfg0.win 5).blk t).view.emb y) := by
  obtain ⟨x0, x1, k0, k1, w0, w1, b0, b1, e0, e1, o0, o1, o2⟩ := block_indices t
  have hy0 : (y 0).val < 64 := (y 0).isLt
  have hy1 : (y 1).val < 128 := (y 1).isLt
  have hy2 : (y 2).val < 128 := (y 2).isLt
  -- the feature read at (p, j) of the step is x[64t + p, j]
  have hx : iblk m c 0 t (Value.ix5_0 y)
      = V m c main_arg0 (ix2 ((((cfg0.win 5).blk t).view.emb y) 0) ((((cfg0.win 5).blk t).view.emb y) 1) : S16384x128.Idx) := by
    show V m c main_arg0 (((cfg0.win 0).blk t).view.emb (Value.ix5_0 y)) = _
    refine congrArg (V m c main_arg0) (funext fun a => Fin.ext ?_)
    match a with
    | ⟨0, _⟩ => show win0_0.index t (0 : Fin 2) * 64 + 1 * (y 0).val = win0_5.index t (0 : Fin 3) * 64 + 1 * (y 0).val; omega
    | ⟨1, _⟩ => show win0_0.index t (1 : Fin 2) * 128 + 1 * (y 1).val = win0_5.index t (1 : Fin 3) * 128 + 1 * (y 1).val; omega
  -- the weight read at (p, j) of the step is mask[64t + p, j]
  have hk : iblk m c 1 t (Value.ix5_3 y)
      = V m c main_arg1 (ix2 ((((cfg0.win 5).blk t).view.emb y) 0) ((((cfg0.win 5).blk t).view.emb y) 1) : S16384x128.Idx) := by
    show V m c main_arg1 (((cfg0.win 1).blk t).view.emb (Value.ix5_3 y)) = _
    refine congrArg (V m c main_arg1) (funext fun a => Fin.ext ?_)
    match a with
    | ⟨0, _⟩ => show win0_1.index t (0 : Fin 2) * 64 + 1 * (y 0).val = win0_5.index t (0 : Fin 3) * 64 + 1 * (y 0).val; omega
    | ⟨1, _⟩ => show win0_1.index t (1 : Fin 2) * 128 + 1 * (y 1).val = win0_5.index t (1 : Fin 3) * 128 + 1 * (y 1).val; omega
  -- the slope read at (j, k) is W[j, k]
  have hw : iblk m c 2 t (Value.ix5_1 y)
      = V m c main_arg2 (ix2 ((((cfg0.win 5).blk t).view.emb y) 1) ((((cfg0.win 5).blk t).view.emb y) 2) : S128x128.Idx) := by
    show V m c main_arg2 (((cfg0.win 2).blk t).view.emb (Value.ix5_1 y)) = _
    refine congrArg (V m c main_arg2) (funext fun a => Fin.ext ?_)
    match a with
    | ⟨0, _⟩ => show win0_2.index t (0 : Fin 2) * 128 + 1 * (y 1).val = win0_5.index t (1 : Fin 3) * 128 + 1 * (y 1).val; omega
    | ⟨1, _⟩ => show win0_2.index t (1 : Fin 2) * 128 + 1 * (y 2).val = win0_5.index t (2 : Fin 3) * 128 + 1 * (y 2).val; omega
  -- the intercept read at (j, k) is b[j, k]
  have hb : iblk m c 3 t (Value.ix5_2 y)
      = V m c main_arg3 (ix2 ((((cfg0.win 5).blk t).view.emb y) 1) ((((cfg0.win 5).blk t).view.emb y) 2) : S128x128.Idx) := by
    show V m c main_arg3 (((cfg0.win 3).blk t).view.emb (Value.ix5_2 y)) = _
    refine congrArg (V m c main_arg3) (funext fun a => Fin.ext ?_)
    match a with
    | ⟨0, _⟩ => show win0_3.index t (0 : Fin 2) * 128 + 1 * (y 1).val = win0_5.index t (1 : Fin 3) * 128 + 1 * (y 1).val; omega
    | ⟨1, _⟩ => show win0_3.index t (1 : Fin 2) * 128 + 1 * (y 2).val = win0_5.index t (2 : Fin 3) * 128 + 1 * (y 2).val; omega
  -- the embedding read at (0, k) is e[0, k]
  have he : iblk m c 4 t (Value.ix5_4 y)
      = V m c main_arg4 (ix2 (0 : Fin 1) ((((cfg0.win 5).blk t).view.emb y) 2) : S1x128.Idx) := by
    show V m c main_arg4 (((cfg0.win 4).blk t).view.emb (Value.ix5_4 y)) = _
    refine congrArg (V m c main_arg4) (funext fun a => Fin.ext ?_)
    match a with
    | ⟨0, _⟩ => show win0_4.index t (0 : Fin 2) * 1 + 1 * 0 = 0; omega
    | ⟨1, _⟩ => show win0_4.index t (1 : Fin 2) * 128 + 1 * (y 2).val = win0_5.index t (2 : Fin 3) * 128 + 1 * (y 2).val; omega
  -- both sides are the scalar formula, of the block entries and of the array entries
  show mix (iblk m c 0 t (Value.ix5_0 y)) (iblk m c 2 t (Value.ix5_1 y)) (iblk m c 3 t (Value.ix5_2 y))
      (iblk m c 1 t (Value.ix5_3 y)) (iblk m c 4 t (Value.ix5_4 y)) = _
  rw [hx, hk, hw, hb, he]
  rfl

/-- What step `t` writes back is the band of the blend under its block. -/
theorem flushed_eq (c : Dev nD) (t : Fin cfg0.N) :
    (dats m 0 c).flushed 5 t = ((cfg0.win 5).blk t).view.read (Elt Ideal) (result m c) := by
  rw [Value.flushed5]
  funext y
  show out0_5 (iblk m c 0 t) (iblk m c 1 t) (iblk m c 2 t) (iblk m c 3 t) (iblk m c 4 t) y
    = result m c (((cfg0.win 5).blk t).view.emb y)
  exact (step_block (iblk m c 0 t) (iblk m c 1 t) (iblk m c 2 t) (iblk m c 3 t) (iblk m c 4 t) y).trans (band_eq m c t y)

/-! ## All the steps -/

/-- An index of the result array is under step `t`'s block iff each coordinate is in the block's range on its axis. -/
theorem mem_band (t : Fin cfg0.N) (i : S16384x128x128.Idx) :
    i ∈ ((cfg0.win 5).blk t).view.set ↔ ∀ a : Fin 3, win0_5.index t a * S64x128x128.size a ≤ (i a).val
      ∧ (i a).val < win0_5.index t a * S64x128x128.size a + S64x128x128.size a := by
  show i ∈ ((View.whole main_v0).slice (win0_5.rect t)).set ↔ _
  rw [View.set_slice_whole, Rect.mem_set_unit]
  exact Iff.rfl

/-- The bands tile the array: row `r` is in the band of step `r / 64`, which spans all columns and hidden units. -/
theorem covered (i : S16384x128x128.Idx) :
    ∃ t : Fin cfg0.N, (cfg0.win 5).flush t = true ∧ i ∈ ((cfg0.win 5).blk t).view.set := by
  have hi0 : (i 0).val < 16384 := (i 0).isLt
  have hi1 : (i 1).val < 128 := (i 1).isLt
  have hi2 : (i 2).val < 128 := (i 2).isLt
  have hlt : (i 0).val / 64 < grid0.N := by rw [N_0]; omega
  obtain ⟨t, ht⟩ : ∃ t : Fin cfg0.N, t.val = (i 0).val / 64 := ⟨⟨(i 0).val / 64, hlt⟩, rfl⟩
  obtain ⟨x0, x1, k0, k1, w0, w1, b0, b1, e0, e1, o0, o1, o2⟩ := block_indices t
  refine ⟨t, flush0_5 t, ?_⟩
  rw [mem_band]
  intro a
  match a with
  | ⟨0, _⟩ => show win0_5.index t (0 : Fin 3) * 64 ≤ (i 0).val ∧ (i 0).val < win0_5.index t (0 : Fin 3) * 64 + 64; omega
  | ⟨1, _⟩ => show win0_5.index t (1 : Fin 3) * 128 ≤ (i 1).val ∧ (i 1).val < win0_5.index t (1 : Fin 3) * 128 + 128; omega
  | ⟨2, _⟩ => show win0_5.index t (2 : Fin 3) * 128 ≤ (i 2).val ∧ (i 2).val < win0_5.index t (2 : Fin 3) * 128 + 128; omega

/-- After the last step the result array is the blend of the arguments. -/
theorem final (c : Dev nD) : (dats m 0 c).arrAt 5 cfg0.N = result m c :=
  (dats m 0 c).arrAt_eq_of_cover 5 (result m c) (fun t _ => flushed_eq m c t) covered

/-- The kernel's run: it terminates with the result array at the blend of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.KerBlend

end
-- ==== Proof.lean ====
/-
  The feature tokenizer kernel computes what its reference computes.

  For every batch row `r`, numerical column `j` and hidden unit `k` both programs end with
      (x[r, j] · W[j, k] + b[j, k]) · (1 − mask[r, j]) + e[0, k] · mask[r, j]
  at (r, j, k) of their result: the column's affine map of the scalar feature into the hidden dimension, blended with
  the mask embedding `e` by the weight `mask[r, j]` (Proof/Blend.lean states this array, `blend`). The reference
  broadcasts every argument to the full shape and combines entry by entry; read at an index, each broadcast is its
  source at the coordinates the source has (Proof/ReferenceBlend.lean). The kernel walks the rows in 256 bands of 64,
  each step writing its band of the same expression, and the bands tile the rows (Proof/KernelBlend.lean). The two
  programs apply the same operations in the same order to the same entries, so they agree on the extended reals
  with no algebraic law between them: the equality does not use that the inputs are finite. The kernel's idealization
  rewrote nothing, so there is nothing to preserve; each program's arguments end as they began.
-/
import proofs.«175717_j69664369541889_1_alg».proof.Defs
import proofs.«175717_j69664369541889_1_alg».proof.Proof.Gen.Kernel
import proofs.«175717_j69664369541889_1_alg».proof.Proof.Gen.Kernel.Frame
import proofs.«175717_j69664369541889_1_alg».proof.Proof.Gen.KernelIdeal
import proofs.«175717_j69664369541889_1_alg».proof.Proof.Gen.KernelIdeal.Frame
import proofs.«175717_j69664369541889_1_alg».proof.Proof.Gen.ReferenceIdeal
import proofs.«175717_j69664369541889_1_alg».proof.Proof.Gen.Pre_finite_inputs
import proofs.«175717_j69664369541889_1_alg».proof.Proof.Gen.KernelIdeal.Value
import proofs.«175717_j69664369541889_1_alg».proof.Proof.Gen.ReferenceIdeal.Run
import proofs.«175717_j69664369541889_1_alg».proof.Proof.Gen.ReferenceIdeal.Read
import proofs.«175717_j69664369541889_1_alg».proof.Proof.Blend
import proofs.«175717_j69664369541889_1_alg».proof.Proof.ReferenceBlend
import proofs.«175717_j69664369541889_1_alg».proof.Proof.KernelBlend
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs to the end and leaves its arguments as they were: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Reading the kernel on the extended reals rewrote none of its operations. -/
theorem preserves : Cert.preserves_Kernel_KernelIdeal := trivial

/-- From memories that agree on the five arguments, the kernel ends with the blend of its arguments in its result
    array and the reference ends with the blend of its own, which are the same arrays: equal results. -/
theorem algebraic : Cert.algebraic_KernelIdeal_ReferenceIdeal := by
  intro m ρ m' ρ' _ hagree
  refine ⟨fun c => Cert.KernelIdeal.KerBlend.result m c, Cert.KernelIdeal.KerBlend.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefBlend.stage_eq_blend,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
